-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096x16 .f32) (main_arg3 : FVec F S16x4096 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S1024x1024 : Shape := ⟨2, ![1024, 1024]⟩
abbrev S1024x16 : Shape := ⟨2, ![1024, 16]⟩
abbrev S16x1024 : Shape := ⟨2, ![16, 1024]⟩
abbrev S16384x4096 : Shape := ⟨2, ![16384, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S2048x512, .bf16⟩
  | .local _ .vmem, ⟨11, _⟩ => ⟨S2048x512, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x4096x4096_S16384x4096 : S4x4096x4096.ShapeCasts S16384x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S4x4096x4096 : S16384x4096.ShapeCasts S4x4096x4096
  dot_S1024x16_S16x1024_S1024x1024_1_0_0_1_n_n_wf : DotDims.WF S1024x16 S16x1024 S1024x1024 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x4096.size a
  hwx1_3 : ∀ i : grid1.Coords, EltTy.bits .f32 = 32 ∨ (Rect.block (s := S16384x4096) S1024x2048.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x4096x4096, .f32⟩
  | .hbm, ⟨11, _⟩ => ⟨S1x1x4096, .f32⟩
  | .hbm, ⟨12, _⟩ => ⟨S4x4096x4096, .f32⟩
  | .hbm, ⟨13, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.K.Region0.lean ====
/-
  Region 0 of @main, the pallas_call that forms the effective weight: at each of its 4 x 4 grid points the body
  reads a 1024 x 1024 block of W_q, the 1024 x 16 block of A in the same block row and the 16 x 1024 block of B in
  the same block column, and stores W_q + (1/16) * (A B) over the whole output block. One control case; every
  window's block is written or read whole. Stated at a parameter V, the contents of the core's buffers when the
  region is entered, and at any float instance F.
-/
import proofs.«170482_j65687229825366_1_alg».proof.Proof.Gen.Kernel.Launch
import proofs.«170482_j65687229825366_1_alg».proof.Proof.Gen.Kernel.Skeleton
import proofs.«170482_j65687229825366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or the block index did not move since the last fetch: the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_0 : Rect S1024x1024 := Rect.unit (s := S1024x1024) ![0, 0] S1024x1024.size inb_S1024x1024_S1024x1024_0_0
abbrev r0_1 : Rect S1024x16 := Rect.unit (s := S1024x16) ![0, 0] S1024x16.size inb_S1024x16_S1024x16_0_0
abbrev r0_2 : Rect S16x1024 := Rect.unit (s := S16x1024) ![0, 0] S16x1024.size inb_S16x1024_S16x1024_0_0

/-! ## What the body leaves in the output window's buffer -/

/-- The output block after the body, from the three input blocks: its one store, over the whole block, of
    W_q + (1/16) * (A B) (the skeleton's payload). -/
def out0_3 (x0 : Vec F S1024x1024 .f32) (x1 : Vec F S1024x16 .f32) (x2 : Vec F S16x1024 .f32) : Vec F S1024x1024 .bf16 :=
  View.canon [⟨r0_0, k0_pay1 (View.ld x1 r0_1) (View.ld x2 r0_2) (View.ld x0 r0_0)⟩]

/-- The one store covers the block. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- On whole staging memrefs, the inputs' at contents x0, x1, x2 and the output's at anything, the body runs to the
    continuation holding the inputs' as they were and the output's at out0_3 of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__effw_kernel i arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Region1.lean ====
/-
  Region 1 of @main, the tiled matrix product with bias: grid 16 x 2 x 8, the last axis running over the eight
  512-wide blocks of the contracted axis. At point (i, j, k) the body reads the 1024 x 512 block (i, k) of the
  flattened x, the 2048 x 512 block (j, k) of the effective weight and the 1 x 2048 block j of the bias; a
  1024 x 2048 scratch carries the running sum: zeroed when k = 0, then increased by the block product at every k;
  when k = 7 the sum plus the bias row is stored over the whole output block (i, j), which the pipeline writes back
  there and nowhere else. Stated at a parameter V, the contents of the core's buffers when the region is entered,
  and at any float instance F.
-/
import proofs.«170482_j65687229825366_1_alg».proof.Proof.Gen.Kernel.Launch
import proofs.«170482_j65687229825366_1_alg».proof.Proof.Gen.Kernel.Skeleton
import proofs.«170482_j65687229825366_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point t, at their literal types: of the flattened x, of the effective weight, of the bias row. -/
abbrev xblk1 (c : Dev nD) (t : Fin cfg1.N) : Vec F S1024x512 .f32 := iblk1 V c 0 t
abbrev wblk1 (c : Dev nD) (t : Fin cfg1.N) : Vec F S2048x512 .bf16 := iblk1 V c 1 t
abbrev bblk1 (c : Dev nD) (t : Fin cfg1.N) : Vec F S1x2048 .f32 := iblk1 V c 2 t

/-! ## What the scratch and the output buffer hold after each point -/

/-- The scratch after the body at point n: at the first point of a run of eight (n divisible by 8) the block product
    added to the zero block; elsewhere the block product added to what the point before left. -/
def accAt1 (c : Dev nD) : (n : ℕ) → n < cfg1.N → Vec F S1024x2048 .f32
  | 0, hn => k1_pay2 (xblk1 V c ⟨0, hn⟩) (wblk1 V c ⟨0, hn⟩) (k1_pay1 (F := F))
  | n + 1, hn =>
    if (n + 1) % 8 = 0 then k1_pay2 (xblk1 V c ⟨n + 1, hn⟩) (wblk1 V c ⟨n + 1, hn⟩) (k1_pay1 (F := F))
    else k1_pay2 (xblk1 V c ⟨n + 1, hn⟩) (wblk1 V c ⟨n + 1, hn⟩) (accAt1 c n (Nat.lt_of_succ_lt hn))

/-- The output window's staging buffer after the body at point n, where the body stores into it (the last point of a
    run of eight): the running sum plus the bias row. At the other points the body leaves the buffer alone and the
    pipeline does not write it back; this value is not consulted there. -/
def outAt1 (c : Dev nD) (n : ℕ) (hn : n < cfg1.N) : Vec F S1024x2048 .f32 :=
  k1_pay3 (accAt1 V c n hn) (bblk1 V c ⟨n, hn⟩)

theorem accAt1_reset (c : Dev nD) (t : Fin cfg1.N) (h : t.val % 8 = 0) :
    accAt1 V c t.val t.isLt = k1_pay2 (xblk1 V c t) (wblk1 V c t) (k1_pay1 (F := F)) := by
  obtain ⟨n, hn⟩ := t
  cases n with
  | zero => rfl
  | succ n => exact if_pos h

theorem accAt1_step (c : Dev nD) (t : Fin cfg1.N) (h : t.val % 8 ≠ 0) :
    accAt1 V c t.val t.isLt
      = k1_pay2 (xblk1 V c t) (wblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

theorem outAt1_eq (c : Dev nD) (t : Fin cfg1.N) :
    outAt1 V c t.val t.isLt = k1_pay3 (accAt1 V c t.val t.isLt) (bblk1 V c t) := rfl

/-! ## The body's two conditions, and where the output window is idle -/

/-- "k = 0", as the body computes it from the last grid coordinate: the scratch is zeroed where it holds. -/
abbrev cond1_0 (i : grid1.Coords) : Prop :=
  (Scalar.cmpi .ne (Scalar.extui (Scalar.cmpi .eq (BitVec.ofNat 32 (i 2).val) 0#32)) 0#32) = 1#1
/-- "k = 7": the sum plus the bias row is stored to the output block where it holds. -/
abbrev cond1_1 (i : grid1.Coords) : Prop := k1_cond2 i = 1#1

/-- The last coordinate runs fastest, so k = 0 at the points divisible by 8 -/
theorem hcond1_0 : ∀ t : Fin cfg1.N, cond1_0 (grid1.coords t) ↔ t.val % 8 = 0 :=
  (by decide +kernel : ∀ t : Fin grid1.N, cond1_0 (grid1.coords t) ↔ t.val % 8 = 0)
/-- and k = 7 at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- Where k ≠ 7 the body stores nothing into the output window's buffer, -/
theorem idleAt1_3 : ∀ t : Fin cfg1.N, ¬cond1_1 (grid1.coords t) → cfg1.idle 3 (grid1.coords t) = true := by decide +kernel
/-- and the pipeline does not write the block back there. -/
theorem noFlush1_3 : ∀ t : Fin cfg1.N, ¬cond1_1 (grid1.coords t) → (cfg1.win 3).flush t = false := by decide +kernel
/-- Where k = 7 it stores the whole block. -/
theorem liveAt1_3 : ∀ t : Fin cfg1.N, cond1_1 (grid1.coords t) → cfg1.idle 3 (grid1.coords t) = false := by decide +kernel

/-! ## The body on any whole memrefs, case by case

Every load and store of the body is of a whole block: the rectangle at zero offsets of the block's own sizes. So a
load reads the contents, and the last store into a buffer leaves its payload whatever was there. -/

/-- The offsets of every access of the body, all zero. -/
theorem hz1 : (![0, 0] : Fin 2 → Nat) = fun _ => 0 := funext fun a => by fin_cases a <;> rfl

/-- The body's stores into the scratch and into the output buffer are of the whole 1024 x 2048 block. -/
abbrev rAcc1 : Rect S1024x2048 := Rect.unit (s := S1024x2048) ![0, 0] S1024x2048.size inb_S1024x2048_S1024x2048_0_0

/-- A list of stores whose last is of the whole block covers the block. -/
theorem cover1_cons (p : Vec F S1024x2048 .f32) (L : List (View.Piece (Elt F) S1024x2048 .f32)) (y : S1024x2048.Idx) :
    ∃ pc ∈ ((⟨rAcc1, p⟩ : View.Piece (Elt F) S1024x2048 .f32) :: L), y ∈ pc.1.set :=
  ⟨_, List.mem_cons_self .., View.mem_set_unit_zero hz1 inb_S1024x2048_S1024x2048_0_0 y⟩

set_option maxHeartbeats 1000000 in
/-- Case A (k = 0): whatever the scratch held, it is zeroed and leaves at the block product added to the zero block;
    the four window buffers are handed back as found. -/
theorem run1_A (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x : Vec F S1024x512 .f32) (w : Vec F S2048x512 .bf16) (b : Vec F S1x2048 .f32) (o : Vec F S1024x2048 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1_cons _ _), View.canon_cons_unit_zero hz1]
  simp only [View.readAt_eq_ld, View.ld_unit_zero (S := S1024x512) hz1, View.ld_unit_zero (S := S2048x512) hz1,
    View.readCov_unit_zero (S := S1024x2048) _ hz1]

set_option maxHeartbeats 1000000 in
/-- Case B (k neither 0 nor 7): the scratch, entered at s, leaves at the block product added to s; the four window
    buffers are handed back as found. -/
theorem run1_B (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x : Vec F S1024x512 .f32) (w : Vec F S2048x512 .bf16) (b : Vec F S1x2048 .f32) (o : Vec F S1024x2048 .f32)
    (s : Vec F S1024x2048 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w s)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover1_cons _ _), View.canon_unit_zero hz1]
  simp only [View.readAt_eq_ld, View.ld_unit_zero (S := S1024x512) hz1, View.ld_unit_zero (S := S2048x512) hz1,
    View.ld_unit_zero (S := S1024x2048) hz1]

set_option maxHeartbeats 1000000 in
/-- Case C (k = 7): the scratch, entered at s, leaves at the block product added to s, and that sum plus the bias row
    is stored over the whole output buffer, whatever it held; the three input buffers are handed back as found. -/
theorem run1_C (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x : Vec F S1024x512 .f32) (w : Vec F S2048x512 .bf16) (b : Vec F S1x2048 .f32)
    (s : Vec F S1024x2048 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_cons _ _), View.canon_unit_zero hz1]
    simp only [View.readAt_eq_ld, View.ld_unit_zero (S := S1024x512) hz1, View.ld_unit_zero (S := S2048x512) hz1,
      View.ld_unit_zero (S := S1x2048) hz1, View.ld_unit_zero (S := S1024x2048) hz1,
      View.readCov_unit_zero (S := S1024x2048) _ hz1]
  iexists _; isplitr
  swap; · iexact HS
  ipureintro
  sl_unfold_words
  rw [View.read_writes_eq_canon _ _ _ (cover1_cons _ _), View.canon_unit_zero hz1]
  simp only [View.readAt_eq_ld, View.ld_unit_zero (S := S1024x512) hz1, View.ld_unit_zero (S := S2048x512) hz1,
    View.ld_unit_zero (S := S1024x2048) hz1]

/-! ## The region invariant -/

/-- The scratch the body carries from point to point, as a memref. -/
abbrev scM1 : Memref sig .tc .vmem S1024x2048 .f32 := Memref.whole cc1_scratch0

/-- The eight staging buffers of the other pallas_call, each whole at some contents: scoped buffers of the core that
    this region never touches. -/
def other8 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant, split: the other call's eight staging buffers at anything, the scratch owned as a memref at
    some contents, the generator register at some state. -/
theorem PhiA1_eq (c : Dev nD) :
    (Pipeline.ΦA spec1 c : sProp 𝕄)
      = iprop(other8 (F := F) c ∗ (∃ d, owns (c : Thread nD τ) scM1 fullShare d) ∗ (∃ r, prngReg c r)) := by
  unfold Pipeline.ΦA other8; rw [scopedRest1_eq]; simp only [scM1, owns_whole]
  refine BI.equiv_iff.mp ⟨?_, ?_⟩
  · show (_ : sProp 𝕄) ⊢ _
    iintro ⟨⟨H1, H2, H3, H4, H5, H6, H7, H8, HS⟩, Hg⟩
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iexact Hg
  · show (_ : sProp 𝕄) ⊢ _
    iintro ⟨⟨H1, H2, H3, H4, H5, H6, H7, H8⟩, HS, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg

/-- The region invariant before position n: before the first point the class's (the scratch at anything);
    afterwards the same with the scratch at what the point before left in it, the running sum accAt1. -/
def PhiS1 (c : Dev nD) : (n : ℕ) → n ≤ cfg1.N → sProp 𝕄
  | 0, _ => Pipeline.ΦA spec1 c
  | n + 1, hn => iprop(other8 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl

/-- After point n: the scratch at that point's running sum. -/
theorem PhiS1_succ (c : Dev nD) (n : ℕ) (hn : n < cfg1.N) :
    PhiS1 V c (n + 1) hn
      = iprop(other8 (F := F) c ∗ owns (c : Thread nD τ) scM1 fullShare (accAt1 V c n hn) ∗ (∃ r, prngReg c r)) := rfl

/-- Before a point that is not the first: the scratch at what the point before left. -/
theorem PhiS1_pos (c : Dev nD) (n : ℕ) (h : n ≤ cfg1.N) (hz : n ≠ 0) :
    PhiS1 V c n h
      = iprop(other8 (F := F) c ∗ owns (c : Thread nD τ) scM1 fullShare (accAt1 V c (n - 1) (by omega)) ∗ (∃ r, prngReg c r)) := by
  cases n with
  | zero => exact absurd rfl hz
  | succ n => rfl

/-! ## The pipeline's proof data -/

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-! ## What the input windows' buffers hold when the body runs -/

/-- An input window's current staging buffer holds its block at every point, whether the pipeline fetched it there
    or the block index did not move since the last fetch (the bias row's moves only with j, every eighth point): the
    body only reads it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the output's handed back as found where the
    window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks; the point's number modulo 8 says which case it is
    in. The invariant hands the body the scratch at what the point before left (at anything at the first point) and
    takes it back at this point's running sum: the block product added to the zero block when k = 0 (accAt1_reset),
    to what the point before left otherwise (accAt1_step). The output's buffer is handed back as found when k ≠ 7, and
    when k = 7 holds the running sum plus the bias row. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h0 : t.val % 8 = 0
  · -- k = 0
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), accAt1_reset V c t h0]
    by_cases hz : t.val = 0
    · rw [PhiS1_zero V c _ _ hz, PhiA1_eq]
      iintro ⟨⟨Hr, HS, Hg⟩, Ho, ⟨%d0, H0⟩, ⟨%d1, H1⟩, ⟨%d2, H2⟩, ⟨%d3, H3⟩⟩
      iapply (run1_A c Set.univ _ _ _ _ _ _ _ _ _ _ _ hc0 hc1 (xblk1 V c t) (wblk1 V c t) (bblk1 V c t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
    · rw [PhiS1_pos V c _ _ hz]
      iintro ⟨⟨Hr, HS, Hg⟩, Ho, ⟨%d0, H0⟩, ⟨%d1, H1⟩, ⟨%d2, H2⟩, ⟨%d3, H3⟩⟩
      iapply (run1_A c Set.univ _ _ _ _ _ _ _ _ _ _ _ hc0 hc1 (xblk1 V c t) (wblk1 V c t) (bblk1 V c t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
  · have hc0 : ¬cond1_0 (grid1.coords t) := fun h => h0 ((hcond1_0 t).mp h)
    have hz : t.val ≠ 0 := fun e => h0 (by rw [e])
    rw [PhiS1_pos V c _ _ hz, accAt1_step V c t h0]
    by_cases h7 : t.val % 8 = 7
    · -- k = 7
      have hc1 : cond1_1 (grid1.coords t) := (hcond1_1 t).mpr h7
      rw [show (dat1 V c).leavesExact 3 t = owns (c : Thread nD τ) (st1_3 t) fullShare ((dat1 V c).after 3 t) from by
        unfold Dat.leavesExact; rw [liveAt1_3 t hc1], after1_3, outAt1_eq, accAt1_step V c t h0]
      iintro ⟨⟨Hr, HS, Hg⟩, Ho, ⟨%d0, H0⟩, ⟨%d1, H1⟩, ⟨%d2, H2⟩, ⟨%d3, H3⟩⟩
      iapply (run1_C c Set.univ _ _ _ _ _ _ _ _ _ _ _ hc0 hc1 (xblk1 V c t) (wblk1 V c t) (bblk1 V c t)
        (accAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · -- 0 < k < 7
      have hc1 : ¬cond1_1 (grid1.coords t) := fun h => h7 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (run1_B c Set.univ _ _ _ _ _ _ _ _ _ _ _ hc0 hc1 (xblk1 V c t) (wblk1 V c t) (bblk1 V c t) ((dat1 V c).before 3 t d3)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hr, HS, Hg⟩
  isplitl [Hr]; · iexact Hr
  isplitl [HS]; · iexists _; iexact HS
  iexact Hg

/-- After the last point the invariant gives the class's back: the scratch's named contents are forgotten. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Frame

end
-- ==== Proof.K.Launch.lean ====
/-
  The run of @main from the launch to the return: region 0 (the effective weight), the two reshapes that flatten x
  and lift the bias to a row, region 1 (the tiled product with bias), and the reshape of the product back to three
  axes. The contents of every unscoped buffer are followed through the four segments as a fold from the launch
  memory: a region changes its windows' arrays to what its write-backs leave and nothing else, a reshape writes its
  result and nothing else. From the fold: every weakly fair execution terminates with every unscoped buffer at the
  fold's last stage, so the arguments end as launched and the result buffer holds the reshape of what region 1 left.
  At any float instance F.
-/
import proofs.«170482_j65687229825366_1_alg».proof.Proof.K.Region0
import proofs.«170482_j65687229825366_1_alg».proof.Proof.K.Region1
import proofs.«170482_j65687229825366_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- The same read at the TensorCore's references: what region 0 is entered with. -/
abbrev V0 : (c : Dev nD) → (b : Ref sig .tc) → Buf (Elt F) ((c : Thread nD τ).loc b) := fun c b => W0 m ρ c b
/-- At region 0's exit: its four arrays at what the pipeline leaves (the three inputs as entered, the effective
    weight's at its write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references. -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: what region 1 is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- A buffer that is neither reshape's result is as region 0 left it. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- At region 1's exit: its four arrays at what the pipeline leaves (the three inputs as entered, the product's at
    its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: what the launch reads at the end. -/
abbrev W4 : Dev nD → Valuation τ sig (Elt F) := fun c => StableHlo.after hostOps2 (W3 m ρ c)
/-- A buffer that is not the last reshape's result is as region 1 left it. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ### The arguments end as launched: no reshape writes one, and a region reads it through an input window or
    leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) :=
        (W1_arr m ρ c 1).trans (((dat0 (V0 m ρ) c).arrAt_in 1 rfl _).trans (A_eq0 (V0 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) :=
        (W1_arr m ρ c 2).trans (((dat0 (V0 m ρ) c).arrAt_in 2 rfl _).trans (A_eq0 (V0 m ρ) c 2))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-! ### The buffers the regions and the reshapes do write -/

/-- Region 0 leaves the effective weight's buffer at its write-backs folded. -/
theorem W1_main_v0 (c : Dev nD) : W1 m ρ c (Proc.devRef .tc main_v0) = (dat0 (V0 m ρ) c).arrAt 3 cfg0.N :=
  W1_arr m ρ c 3
/-- Region 1 leaves the product's buffer at its write-backs folded. -/
theorem W3_main_v3 (c : Dev nD) : W3 m ρ c (Proc.devRef .tc main_v3) = (dat1 (V2 m ρ) c).arrAt 3 cfg1.N :=
  W3_arr m ρ c 3
/-- Region 1 finds the effective weight as region 0 left it: no reshape writes it. -/
theorem V2_main_v0 (c : Dev nD) : V2 m ρ c main_v0 = (dat0 (V0 m ρ) c).arrAt 3 cfg0.N :=
  (W2_of m ρ c main_v0 (by decide)).trans (W1_main_v0 m ρ c)
/-- Region 1 finds x flattened to two axes: the first reshape's result, of the argument as launched (region 0 does
    not touch it, the second reshape writes another buffer). -/
theorem V2_main_v1 (c : Dev nD) :
    V2 m ρ c main_v1 = shapeCast S16384x4096 (m ((c : Thread nD τ).loc main_arg0)) shapeCasts_S4x4096x4096_S16384x4096 := by
  show StableHlo.after hostOps1 (W1 m ρ c) (Proc.devRef .tc main_v1) = _
  after_results
  rewrite [W1_of_ne m ρ c main_arg0 (by decide)]
  rfl
/-- Region 1 finds the bias as a one-row matrix: the second reshape's result, of the argument as launched. -/
theorem V2_main_v2 (c : Dev nD) :
    V2 m ρ c main_v2 = shapeCast S1x4096 (m ((c : Thread nD τ).loc main_arg4)) shapeCasts_S4096_S1x4096 := by
  show StableHlo.after hostOps1 (W1 m ρ c) (Proc.devRef .tc main_v2) = _
  after_results
  rewrite [W1_of_ne m ρ c main_arg4 (by decide)]
  rfl
/-- The result buffer ends at the product as region 1 left it, at three axes: the last reshape's result. -/
theorem W4_main_v4 (c : Dev nD) :
    W4 m ρ c (Proc.devRef .tc main_v4) = shapeCast S4x4096x4096 ((dat1 (V2 m ρ) c).arrAt 3 cfg1.N) shapeCasts_S16384x4096_S4x4096x4096 := by
  show StableHlo.after hostOps2 (W3 m ρ c) (Proc.devRef .tc main_v4) = _
  after_results
  rewrite [W3_main_v3 m ρ c]
  rfl

/-! ## The proof data family and the thread state -/

/-- Every pipeline's proof data, each at its region's entry contents: region 0's at the launch contents, region 1's at
    the contents after the two reshapes. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A stretch of reshapes as a segment: over the unscoped references from the contents W, R riding along; it ends
    with those references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last stage, the generator register
    at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the launch contents, left at W1. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. As region 0, but its
    invariant tracks the scratch: what the launch hands the region makes the invariant before the first point, and
    the invariant after the last point gives the same back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the two reshapes from W1, region 1, the last reshape from W3. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main is the run of the segments: it is the chain of its four items, and so is the segments' run. -/
theorem main_run (c : Dev nD) : main (F := F) c = Pipeline.Seg.run (segs m ρ) := (main_chain c).trans (by chain_rfl)

/-- The last segment's exit state is the last thread state beside the core owing nothing: the same three
    conjuncts, bracketed the other way. -/
theorem hlast (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN. From any memory with zero counters, every weakly fair execution of @main on the TensorCores terminates,
    nothing faulting, and in every final state every unscoped buffer of every core holds the fold's last stage. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and every final state has the five
    argument arrays as launched. Each is an unscoped buffer, read off the run at the fold's last stage. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run m ρ)

/-- THE RESULT: beside the frame, every final state has the result buffer at the fold's last stage. -/
theorem result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v4 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run m ρ)

end Cert.Kernel.Frame

end
-- ==== Proof.KI.Region0.lean ====
/-
  Region 0 of @main, the pallas_call that forms the effective weight: at each of its 4 x 4 grid points the body
  reads a 1024 x 1024 block of W_q, the 1024 x 16 block of A in the same block row and the 16 x 1024 block of B in
  the same block column, and stores W_q + (1/16) * (A B) over the whole output block. One control case; every
  window's block is written or read whole. Stated at a parameter V, the contents of the core's buffers when the
  region is entered, and at any float instance F.
-/
import proofs.«170482_j65687229825366_1_alg».proof.Proof.Gen.KernelIdeal.Launch
import proofs.«170482_j65687229825366_1_alg».proof.Proof.Gen.KernelIdeal.Skeleton
import proofs.«170482_j65687229825366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or the block index did not move since the last fetch: the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole block -/

abbrev r0_0 : Rect S1024x1024 := Rect.unit (s := S1024x1024) ![0, 0] S1024x1024.size inb_S1024x1024_S1024x1024_0_0
abbrev r0_1 : Rect S1024x16 := Rect.unit (s := S1024x16) ![0, 0] S1024x16.size inb_S1024x16_S1024x16_0_0
abbrev r0_2 : Rect S16x1024 := Rect.unit (s := S16x1024) ![0, 0] S16x1024.size inb_S16x1024_S16x1024_0_0

/-! ## What the body leaves in the output window's buffer -/

/-- The output block after the body, from the three input blocks: its one store, over the whole block, of
    W_q + (1/16) * (A B) (the skeleton's payload). -/
def out0_3 (x0 : Vec F S1024x1024 .f32) (x1 : Vec F S1024x16 .f32) (x2 : Vec F S16x1024 .f32) : Vec F S1024x1024 .bf16 :=
  View.canon [⟨r0_0, k0_pay1 (View.ld x1 r0_1) (View.ld x2 r0_2) (View.ld x0 r0_0)⟩]

/-- The one store covers the block. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- On whole staging memrefs, the inputs' at contents x0, x1, x2 and the output's at anything, the body runs to the
    continuation holding the inputs' as they were and the output's at out0_3 of them. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__effw_kernel i arg2 harg2 arg3 harg3 arg4 harg4 arg5 harg5) K := by
  simp only [cc0__effw_kernel_eq_skeleton]; unfold cc0__effw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at point t each
    input's buffer at its block and the output's at out0_3 of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
/-
  Region 1 of @main, the tiled matrix product with bias: grid 16 x 2 x 8, the last axis running over the eight
  512-wide blocks of the contracted axis. At point (i, j, k) the body reads the 1024 x 512 block (i, k) of the
  flattened x, the 2048 x 512 block (j, k) of the effective weight and the 1 x 2048 block j of the bias; a
  1024 x 2048 scratch carries the running sum: zeroed when k = 0, then increased by the block product at every k;
  when k = 7 the sum plus the bias row is stored over the whole output block (i, j), which the pipeline writes back
  there and nowhere else. Stated at a parameter V, the contents of the core's buffers when the region is entered,
  and at any float instance F.
-/
import proofs.«170482_j65687229825366_1_alg».proof.Proof.Gen.KernelIdeal.Launch
import proofs.«170482_j65687229825366_1_alg».proof.Proof.Gen.KernelIdeal.Skeleton
import proofs.«170482_j65687229825366_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point t, at their literal types: of the flattened x, of the effective weight, of the bias row. -/
abbrev xblk1 (c : Dev nD) (t : Fin cfg1.N) : Vec F S1024x512 .f32 := iblk1 V c 0 t
abbrev wblk1 (c : Dev nD) (t : Fin cfg1.N) : Vec F S2048x512 .bf16 := iblk1 V c 1 t
abbrev bblk1 (c : Dev nD) (t : Fin cfg1.N) : Vec F S1x2048 .f32 := iblk1 V c 2 t

/-! ## What the scratch and the output buffer hold after each point -/

/-- The scratch after the body at point n: at the first point of a run of eight (n divisible by 8) the block product
    added to the zero block; elsewhere the block product added to what the point before left. -/
def accAt1 (c : Dev nD) : (n : ℕ) → n < cfg1.N → Vec F S1024x2048 .f32
  | 0, hn => k1_pay2 (xblk1 V c ⟨0, hn⟩) (wblk1 V c ⟨0, hn⟩) (k1_pay1 (F := F))
  | n + 1, hn =>
    if (n + 1) % 8 = 0 then k1_pay2 (xblk1 V c ⟨n + 1, hn⟩) (wblk1 V c ⟨n + 1, hn⟩) (k1_pay1 (F := F))
    else k1_pay2 (xblk1 V c ⟨n + 1, hn⟩) (wblk1 V c ⟨n + 1, hn⟩) (accAt1 c n (Nat.lt_of_succ_lt hn))

/-- The output window's staging buffer after the body at point n, where the body stores into it (the last point of a
    run of eight): the running sum plus the bias row. At the other points the body leaves the buffer alone and the
    pipeline does not write it back; this value is not consulted there. -/
def outAt1 (c : Dev nD) (n : ℕ) (hn : n < cfg1.N) : Vec F S1024x2048 .f32 :=
  k1_pay3 (accAt1 V c n hn) (bblk1 V c ⟨n, hn⟩)

theorem accAt1_reset (c : Dev nD) (t : Fin cfg1.N) (h : t.val % 8 = 0) :
    accAt1 V c t.val t.isLt = k1_pay2 (xblk1 V c t) (wblk1 V c t) (k1_pay1 (F := F)) := by
  obtain ⟨n, hn⟩ := t
  cases n with
  | zero => rfl
  | succ n => exact if_pos h

theorem accAt1_step (c : Dev nD) (t : Fin cfg1.N) (h : t.val % 8 ≠ 0) :
    accAt1 V c t.val t.isLt
      = k1_pay2 (xblk1 V c t) (wblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

theorem outAt1_eq (c : Dev nD) (t : Fin cfg1.N) :
    outAt1 V c t.val t.isLt = k1_pay3 (accAt1 V c t.val t.isLt) (bblk1 V c t) := rfl

/-! ## The body's two conditions, and where the output window is idle -/

/-- "k = 0", as the body computes it from the last grid coordinate: the scratch is zeroed where it holds. -/
abbrev cond1_0 (i : grid1.Coords) : Prop :=
  (Scalar.cmpi .ne (Scalar.extui (Scalar.cmpi .eq (BitVec.ofNat 32 (i 2).val) 0#32)) 0#32) = 1#1
/-- "k = 7": the sum plus the bias row is stored to the output block where it holds. -/
abbrev cond1_1 (i : grid1.Coords) : Prop := k1_cond2 i = 1#1

/-- The last coordinate runs fastest, so k = 0 at the points divisible by 8 -/
theorem hcond1_0 : ∀ t : Fin cfg1.N, cond1_0 (grid1.coords t) ↔ t.val % 8 = 0 :=
  (by decide +kernel : ∀ t : Fin grid1.N, cond1_0 (grid1.coords t) ↔ t.val % 8 = 0)
/-- and k = 7 at the points that are 7 modulo 8. -/
theorem hcond1_1 : ∀ t : Fin cfg1.N, cond1_1 (grid1.coords t) ↔ t.val % 8 = 7 :=
  (by decide +kernel : ∀ t : Fin grid1.N, cond1_1 (grid1.coords t) ↔ t.val % 8 = 7)

/-- Where k ≠ 7 the body stores nothing into the output window's buffer, -/
theorem idleAt1_3 : ∀ t : Fin cfg1.N, ¬cond1_1 (grid1.coords t) → cfg1.idle 3 (grid1.coords t) = true := by decide +kernel
/-- and the pipeline does not write the block back there. -/
theorem noFlush1_3 : ∀ t : Fin cfg1.N, ¬cond1_1 (grid1.coords t) → (cfg1.win 3).flush t = false := by decide +kernel
/-- Where k = 7 it stores the whole block. -/
theorem liveAt1_3 : ∀ t : Fin cfg1.N, cond1_1 (grid1.coords t) → cfg1.idle 3 (grid1.coords t) = false := by decide +kernel

/-! ## The body on any whole memrefs, case by case

Every load and store of the body is of a whole block: the rectangle at zero offsets of the block's own sizes. So a
load reads the contents, and the last store into a buffer leaves its payload whatever was there. -/

/-- The offsets of every access of the body, all zero. -/
theorem hz1 : (![0, 0] : Fin 2 → Nat) = fun _ => 0 := funext fun a => by fin_cases a <;> rfl

/-- The body's stores into the scratch and into the output buffer are of the whole 1024 x 2048 block. -/
abbrev rAcc1 : Rect S1024x2048 := Rect.unit (s := S1024x2048) ![0, 0] S1024x2048.size inb_S1024x2048_S1024x2048_0_0

/-- A list of stores whose last is of the whole block covers the block. -/
theorem cover1_cons (p : Vec F S1024x2048 .f32) (L : List (View.Piece (Elt F) S1024x2048 .f32)) (y : S1024x2048.Idx) :
    ∃ pc ∈ ((⟨rAcc1, p⟩ : View.Piece (Elt F) S1024x2048 .f32) :: L), y ∈ pc.1.set :=
  ⟨_, List.mem_cons_self .., View.mem_set_unit_zero hz1 inb_S1024x2048_S1024x2048_0_0 y⟩

set_option maxHeartbeats 1000000 in
/-- Case A (k = 0): whatever the scratch held, it is zeroed and leaves at the block product added to the zero block;
    the four window buffers are handed back as found. -/
theorem run1_A (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x : Vec F S1024x512 .f32) (w : Vec F S2048x512 .bf16) (b : Vec F S1x2048 .f32) (o : Vec F S1024x2048 .f32)
    (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [View.read_writes_eq_canon _ _ _ (cover1_cons _ _), View.canon_cons_unit_zero hz1]
  simp only [View.readAt_eq_ld, View.ld_unit_zero (S := S1024x512) hz1, View.ld_unit_zero (S := S2048x512) hz1,
    View.readCov_unit_zero (S := S1024x2048) _ hz1]

set_option maxHeartbeats 1000000 in
/-- Case B (k neither 0 nor 7): the scratch, entered at s, leaves at the block product added to s; the four window
    buffers are handed back as found. -/
theorem run1_B (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x : Vec F S1024x512 .f32) (w : Vec F S2048x512 .bf16) (b : Vec F S1x2048 .f32) (o : Vec F S1024x2048 .f32)
    (s : Vec F S1024x2048 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k1_pay2 x w s)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (cover1_cons _ _), View.canon_unit_zero hz1]
  simp only [View.readAt_eq_ld, View.ld_unit_zero (S := S1024x512) hz1, View.ld_unit_zero (S := S2048x512) hz1,
    View.ld_unit_zero (S := S1024x2048) hz1]

set_option maxHeartbeats 1000000 in
/-- Case C (k = 7): the scratch, entered at s, leaves at the block product added to s, and that sum plus the bias row
    is stored over the whole output buffer, whatever it held; the three input buffers are handed back as found. -/
theorem run1_C (c : Dev nD) (E : Set ℕ) (i : grid1.Coords)
    (arg3 : Memref sig .tc .vmem S1024x512 .f32) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x : Vec F S1024x512 .f32) (w : Vec F S2048x512 .bf16) (b : Vec F S1x2048 .f32)
    (s : Vec F S1024x2048 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k1_pay3 (k1_pay2 x w s) b) ∗ owns (c : Thread nD τ) arg7 fullShare (k1_pay2 x w s)) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover1_cons _ _), View.canon_unit_zero hz1]
    simp only [View.readAt_eq_ld, View.ld_unit_zero (S := S1024x512) hz1, View.ld_unit_zero (S := S2048x512) hz1,
      View.ld_unit_zero (S := S1x2048) hz1, View.ld_unit_zero (S := S1024x2048) hz1,
      View.readCov_unit_zero (S := S1024x2048) _ hz1]
  iexists _; isplitr
  swap; · iexact HS
  ipureintro
  sl_unfold_words
  rw [View.read_writes_eq_canon _ _ _ (cover1_cons _ _), View.canon_unit_zero hz1]
  simp only [View.readAt_eq_ld, View.ld_unit_zero (S := S1024x512) hz1, View.ld_unit_zero (S := S2048x512) hz1,
    View.ld_unit_zero (S := S1024x2048) hz1]

/-! ## The region invariant -/

/-- The scratch the body carries from point to point, as a memref. -/
abbrev scM1 : Memref sig .tc .vmem S1024x2048 .f32 := Memref.whole cc1_scratch0

/-- The eight staging buffers of the other pallas_call, each whole at some contents: scoped buffers of the core that
    this region never touches. -/
def other8 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class invariant, split: the other call's eight staging buffers at anything, the scratch owned as a memref at
    some contents, the generator register at some state. -/
theorem PhiA1_eq (c : Dev nD) :
    (Pipeline.ΦA spec1 c : sProp 𝕄)
      = iprop(other8 (F := F) c ∗ (∃ d, owns (c : Thread nD τ) scM1 fullShare d) ∗ (∃ r, prngReg c r)) := by
  unfold Pipeline.ΦA other8; rw [scopedRest1_eq]; simp only [scM1, owns_whole]
  refine BI.equiv_iff.mp ⟨?_, ?_⟩
  · show (_ : sProp 𝕄) ⊢ _
    iintro ⟨⟨H1, H2, H3, H4, H5, H6, H7, H8, HS⟩, Hg⟩
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iexact Hg
  · show (_ : sProp 𝕄) ⊢ _
    iintro ⟨⟨H1, H2, H3, H4, H5, H6, H7, H8⟩, HS, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg

/-- The region invariant before position n: before the first point the class's (the scratch at anything);
    afterwards the same with the scratch at what the point before left in it, the running sum accAt1. -/
def PhiS1 (c : Dev nD) : (n : ℕ) → n ≤ cfg1.N → sProp 𝕄
  | 0, _ => Pipeline.ΦA spec1 c
  | n + 1, hn => iprop(other8 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl

/-- After point n: the scratch at that point's running sum. -/
theorem PhiS1_succ (c : Dev nD) (n : ℕ) (hn : n < cfg1.N) :
    PhiS1 V c (n + 1) hn
      = iprop(other8 (F := F) c ∗ owns (c : Thread nD τ) scM1 fullShare (accAt1 V c n hn) ∗ (∃ r, prngReg c r)) := rfl

/-- Before a point that is not the first: the scratch at what the point before left. -/
theorem PhiS1_pos (c : Dev nD) (n : ℕ) (h : n ≤ cfg1.N) (hz : n ≠ 0) :
    PhiS1 V c n h
      = iprop(other8 (F := F) c ∗ owns (c : Thread nD τ) scM1 fullShare (accAt1 V c (n - 1) (by omega)) ∗ (∃ r, prngReg c r)) := by
  cases n with
  | zero => exact absurd rfl hz
  | succ n => rfl

/-! ## The pipeline's proof data -/

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-! ## What the input windows' buffers hold when the body runs -/

/-- An input window's current staging buffer holds its block at every point, whether the pipeline fetched it there
    or the block index did not move since the last fetch (the bias row's moves only with j, every eighth point): the
    body only reads it. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: each window's buffer at what the body leaves, the output's handed back as found where the
    window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks; the point's number modulo 8 says which case it is
    in. The invariant hands the body the scratch at what the point before left (at anything at the first point) and
    takes it back at this point's running sum: the block product added to the zero block when k = 0 (accAt1_reset),
    to what the point before left otherwise (accAt1_step). The output's buffer is handed back as found when k ≠ 7, and
    when k = 7 holds the running sum plus the bias row. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h0 : t.val % 8 = 0
  · -- k = 0
    have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1), accAt1_reset V c t h0]
    by_cases hz : t.val = 0
    · rw [PhiS1_zero V c _ _ hz, PhiA1_eq]
      iintro ⟨⟨Hr, HS, Hg⟩, Ho, ⟨%d0, H0⟩, ⟨%d1, H1⟩, ⟨%d2, H2⟩, ⟨%d3, H3⟩⟩
      iapply (run1_A c Set.univ _ _ _ _ _ _ _ _ _ _ _ hc0 hc1 (xblk1 V c t) (wblk1 V c t) (bblk1 V c t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
    · rw [PhiS1_pos V c _ _ hz]
      iintro ⟨⟨Hr, HS, Hg⟩, Ho, ⟨%d0, H0⟩, ⟨%d1, H1⟩, ⟨%d2, H2⟩, ⟨%d3, H3⟩⟩
      iapply (run1_A c Set.univ _ _ _ _ _ _ _ _ _ _ _ hc0 hc1 (xblk1 V c t) (wblk1 V c t) (bblk1 V c t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3
  · have hc0 : ¬cond1_0 (grid1.coords t) := fun h => h0 ((hcond1_0 t).mp h)
    have hz : t.val ≠ 0 := fun e => h0 (by rw [e])
    rw [PhiS1_pos V c _ _ hz, accAt1_step V c t h0]
    by_cases h7 : t.val % 8 = 7
    · -- k = 7
      have hc1 : cond1_1 (grid1.coords t) := (hcond1_1 t).mpr h7
      rw [show (dat1 V c).leavesExact 3 t = owns (c : Thread nD τ) (st1_3 t) fullShare ((dat1 V c).after 3 t) from by
        unfold Dat.leavesExact; rw [liveAt1_3 t hc1], after1_3, outAt1_eq, accAt1_step V c t h0]
      iintro ⟨⟨Hr, HS, Hg⟩, Ho, ⟨%d0, H0⟩, ⟨%d1, H1⟩, ⟨%d2, H2⟩, ⟨%d3, H3⟩⟩
      iapply (run1_C c Set.univ _ _ _ _ _ _ _ _ _ _ _ hc0 hc1 (xblk1 V c t) (wblk1 V c t) (bblk1 V c t)
        (accAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · -- 0 < k < 7
      have hc1 : ¬cond1_1 (grid1.coords t) := fun h => h7 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (run1_B c Set.univ _ _ _ _ _ _ _ _ _ _ _ hc0 hc1 (xblk1 V c t) (wblk1 V c t) (bblk1 V c t) ((dat1 V c).before 3 t d3)
        (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨Hr, HS, Hg⟩
  isplitl [Hr]; · iexact Hr
  isplitl [HS]; · iexists _; iexact HS
  iexact Hg

/-- After the last point the invariant gives the class's back: the scratch's named contents are forgotten. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Frame

end
-- ==== Proof.KI.Launch.lean ====
/-
  The run of @main from the launch to the return: region 0 (the effective weight), the two reshapes that flatten x
  and lift the bias to a row, region 1 (the tiled product with bias), and the reshape of the product back to three
  axes. The contents of every unscoped buffer are followed through the four segments as a fold from the launch
  memory: a region changes its windows' arrays to what its write-backs leave and nothing else, a reshape writes its
  result and nothing else. From the fold: every weakly fair execution terminates with every unscoped buffer at the
  fold's last stage, so the arguments end as launched and the result buffer holds the reshape of what region 1 left.
  At any float instance F.
-/
import proofs.«170482_j65687229825366_1_alg».proof.Proof.KI.Region0
import proofs.«170482_j65687229825366_1_alg».proof.Proof.KI.Region1
import proofs.«170482_j65687229825366_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- The same read at the TensorCore's references: what region 0 is entered with. -/
abbrev V0 : (c : Dev nD) → (b : Ref sig .tc) → Buf (Elt F) ((c : Thread nD τ).loc b) := fun c b => W0 m ρ c b
/-- At region 0's exit: its four arrays at what the pipeline leaves (the three inputs as entered, the effective
    weight's at its write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references. -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes: what region 1 is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- A buffer that is neither reshape's result is as region 0 left it. -/
theorem W2_of (c : Dev nD) (r : Ref sig .tc) (h : r ∉ hostOps1_W) :
    W2 m ρ c (Proc.devRef .tc r) = W1 m ρ c (Proc.devRef .tc r) :=
  StableHlo.after_of_writes_sub hostOps1 _ hostOps1_writes h

/-- At region 1's exit: its four arrays at what the pipeline leaves (the three inputs as entered, the product's at
    its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's exit contents at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: what the launch reads at the end. -/
abbrev W4 : Dev nD → Valuation τ sig (Elt F) := fun c => StableHlo.after hostOps2 (W3 m ρ c)
/-- A buffer that is not the last reshape's result is as region 1 left it. -/
theorem W4_of (c : Dev nD) (r : Ref sig .tc) (h : r ∉ hostOps2_W) :
    W4 m ρ c (Proc.devRef .tc r) = W3 m ρ c (Proc.devRef .tc r) :=
  StableHlo.after_of_writes_sub hostOps2 _ hostOps2_writes h

/-! ### The arguments end as launched: no reshape writes one, and a region reads it through an input window or
    leaves it alone -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) :=
        (W1_arr m ρ c 0).trans (((dat0 (V0 m ρ) c).arrAt_in 0 rfl _).trans (A_eq0 (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) :=
        (W1_arr m ρ c 1).trans (((dat0 (V0 m ρ) c).arrAt_in 1 rfl _).trans (A_eq0 (V0 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) :=
        (W1_arr m ρ c 2).trans (((dat0 (V0 m ρ) c).arrAt_in 2 rfl _).trans (A_eq0 (V0 m ρ) c 2))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of m ρ c main_arg4 (by decide)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-! ### The buffers the regions and the reshapes do write -/

/-- Region 0 leaves the effective weight's buffer at its write-backs folded. -/
theorem W1_main_v0 (c : Dev nD) : W1 m ρ c (Proc.devRef .tc main_v0) = (dat0 (V0 m ρ) c).arrAt 3 cfg0.N :=
  W1_arr m ρ c 3
/-- Region 1 leaves the product's buffer at its write-backs folded. -/
theorem W3_main_v3 (c : Dev nD) : W3 m ρ c (Proc.devRef .tc main_v3) = (dat1 (V2 m ρ) c).arrAt 3 cfg1.N :=
  W3_arr m ρ c 3
/-- Region 1 finds the effective weight as region 0 left it: no reshape writes it. -/
theorem V2_main_v0 (c : Dev nD) : V2 m ρ c main_v0 = (dat0 (V0 m ρ) c).arrAt 3 cfg0.N :=
  (W2_of m ρ c main_v0 (by decide)).trans (W1_main_v0 m ρ c)
/-- Region 1 finds x flattened to two axes: the first reshape's result, of the argument as launched (region 0 does
    not touch it, the second reshape writes another buffer). -/
theorem V2_main_v1 (c : Dev nD) :
    V2 m ρ c main_v1 = shapeCast S16384x4096 (m ((c : Thread nD τ).loc main_arg0)) shapeCasts_S4x4096x4096_S16384x4096 := by
  show StableHlo.after hostOps1 (W1 m ρ c) (Proc.devRef .tc main_v1) = _
  after_results
  rewrite [W1_of_ne m ρ c main_arg0 (by decide)]
  rfl
/-- Region 1 finds the bias as a one-row matrix: the second reshape's result, of the argument as launched. -/
theorem V2_main_v2 (c : Dev nD) :
    V2 m ρ c main_v2 = shapeCast S1x4096 (m ((c : Thread nD τ).loc main_arg4)) shapeCasts_S4096_S1x4096 := by
  show StableHlo.after hostOps1 (W1 m ρ c) (Proc.devRef .tc main_v2) = _
  after_results
  rewrite [W1_of_ne m ρ c main_arg4 (by decide)]
  rfl
/-- The result buffer ends at the product as region 1 left it, at three axes: the last reshape's result. -/
theorem W4_main_v4 (c : Dev nD) :
    W4 m ρ c (Proc.devRef .tc main_v4) = shapeCast S4x4096x4096 ((dat1 (V2 m ρ) c).arrAt 3 cfg1.N) shapeCasts_S16384x4096_S4x4096x4096 := by
  show StableHlo.after hostOps2 (W3 m ρ c) (Proc.devRef .tc main_v4) = _
  after_results
  rewrite [W3_main_v3 m ρ c]
  rfl

/-! ## The proof data family and the thread state -/

/-- Every pipeline's proof data, each at its region's entry contents: region 0's at the launch contents, region 1's at
    the contents after the two reshapes. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A stretch of reshapes as a segment: over the unscoped references from the contents W, R riding along; it ends
    with those references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the fold's last stage, the generator register
    at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the launch contents, left at W1. Its arrays
    are split out of the unscoped buffers and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. As region 0, but its
    invariant tracks the scratch: what the launch hands the region makes the invariant before the first point, and
    the invariant after the last point gives the same back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: region 0, the two reshapes from W1, region 1, the last reshape from W3. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main is the run of the segments: it is the chain of its four items, and so is the segments' run. -/
theorem main_run (c : Dev nD) : main (F := F) c = Pipeline.Seg.run (segs m ρ) := (main_chain c).trans (by chain_rfl)

/-- The last segment's exit state is the last thread state beside the core owing nothing: the same three
    conjuncts, bracketed the other way. -/
theorem hlast (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- THE RUN. From any memory with zero counters, every weakly fair execution of @main on the TensorCores terminates,
    nothing faulting, and in every final state every unscoped buffer of every core holds the fold's last stage. -/
theorem run : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates, nothing faulting, and every final state has the five
    argument arrays as launched. Each is an unscoped buffer, read off the run at the fold's last stage. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run m ρ)

/-- THE RESULT: beside the frame, every final state has the result buffer at the fold's last stage. -/
theorem result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v4 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run m ρ)

end Cert.KernelIdeal.Frame

end
-- ==== Proof.Spec.lean ====
/-
  What the kernel and the reference both compute, as functions of the argument arrays over the extended reals,
  index by index: the effective weight W_q + (1/16) * (A B), the flattened product x W^T + bias, and the
  result in its three-axis layout.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The scale 1/16, kept as the binary word both programs print. -/
abbrev sixteenth : EReal := Ideal.ofBits .f32 0x3D800000#32

/-- The effective weight: entry (o, i) is W_q[o, i] + (1/16) * sum over r < 16 of A[o, r] * B[r, i]. -/
def effw (Wq : (⟨2, ![4096, 4096]⟩ : Shape).Idx → EReal) (A : (⟨2, ![4096, 16]⟩ : Shape).Idx → EReal)
    (B : (⟨2, ![16, 4096]⟩ : Shape).Idx → EReal) : (⟨2, ![4096, 4096]⟩ : Shape).Idx → EReal :=
  fun j => Wq j + sixteenth * ∑ r : Fin 16, A (ix2 (n0 := 4096) (n1 := 16) ⟨(j 0).val, (j 0).isLt⟩ r) * B (ix2 (n0 := 16) (n1 := 4096) r ⟨(j 1).val, (j 1).isLt⟩)

/-- The flattened product with bias: entry (r, o) is the sum over i < 4096 of X[r, i] * W[o, i], plus b[0, o]. -/
def mm (X : (⟨2, ![16384, 4096]⟩ : Shape).Idx → EReal) (W : (⟨2, ![4096, 4096]⟩ : Shape).Idx → EReal)
    (b : (⟨2, ![1, 4096]⟩ : Shape).Idx → EReal) : (⟨2, ![16384, 4096]⟩ : Shape).Idx → EReal :=
  fun j => (∑ i : Fin 4096, X (ix2 (n0 := 16384) (n1 := 4096) ⟨(j 0).val, (j 0).isLt⟩ i) * W (ix2 (n0 := 4096) (n1 := 4096) ⟨(j 1).val, (j 1).isLt⟩ i))
    + b (ix2 (n0 := 1) (n1 := 4096) ⟨0, Nat.one_pos⟩ ⟨(j 1).val, (j 1).isLt⟩)

/-- The result: entry (b, s, o) is the sum over i < 4096 of x[b, s, i] * effw[o, i], plus bias[o]. -/
def out (x : (⟨3, ![4, 4096, 4096]⟩ : Shape).Idx → EReal) (Wq : (⟨2, ![4096, 4096]⟩ : Shape).Idx → EReal)
    (A : (⟨2, ![4096, 16]⟩ : Shape).Idx → EReal) (B : (⟨2, ![16, 4096]⟩ : Shape).Idx → EReal)
    (bias : (⟨1, ![4096]⟩ : Shape).Idx → EReal) : (⟨3, ![4, 4096, 4096]⟩ : Shape).Idx → EReal :=
  fun j => (∑ i : Fin 4096, x (ix3 (n0 := 4) (n1 := 4096) (n2 := 4096) ⟨(j 0).val, (j 0).isLt⟩ ⟨(j 1).val, (j 1).isLt⟩ i)
      * effw Wq A B (ix2 (n0 := 4096) (n1 := 4096) ⟨(j 2).val, (j 2).isLt⟩ i))
    + bias (ix1 (n := 4096) ⟨(j 2).val, (j 2).isLt⟩)

end Cert.Spec

end
-- ==== Proof.KI.Val0.lean ====
/-
  The value of region 0 of @main at the extended reals. At each point (i, j) of its 4 x 4 grid the body reads the
  1024 x 1024 block (i, j) of W_q, the 1024 x 16 block (i, 0) of A and the 16 x 1024 block (0, j) of B, and stores
  W_q + (1/16) * (A B) over the whole output block (i, j). Entry (p, q) of that block is
  W_q[1024 i + p, 1024 j + q] + (1/16) * sum over r < 16 of A[1024 i + p, r] * B[r, 1024 j + q], which is the
  effective weight at entry (1024 i + p, 1024 j + q); the sixteen blocks tile the 4096 x 4096 array, so after the
  region the output array holds the effective weight of the arrays the region found.
-/
import proofs.«170482_j65687229825366_1_alg».proof.Proof.KI.Region0
import proofs.«170482_j65687229825366_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.EffwValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat Cfg Window)

/-! ## The block product at an entry -/

/-- The left operand is read in the output entry's row, -/
theorem lhs_blockdot_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- at the column the sum runs over; -/
theorem lhs_blockdot_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
/-- the right operand at the row the sum runs over, -/
theorem rhs_blockdot_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
/-- in the output entry's column. -/
theorem rhs_blockdot_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product of a 1024 x 16 block and a 16 x 1024 block into the zero accumulator, at entry (p, q): the sum over
    r < 16 of a[p, r] * b[r, q]. -/
theorem blockdot_apply (a : FVec Ideal S1024x16 .bf16) (b : FVec Ideal S16x1024 .bf16) (p q : Fin 1024) :
    matmul dot_S1024x16_S16x1024_S1024x1024_1_0_0_1_n_n none a b (constant (F := Ideal) S1024x1024 .f32 0x00000000#32) (ix2 p q)
      = ∑ r : Fin 16, a (ix2 p r) * b (ix2 r q) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun x => Fin.ext (by
    match x with
    | ⟨0, _⟩ => exact lhs_blockdot_0 _ _
    | ⟨1, _⟩ => exact (lhs_blockdot_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun x => Fin.ext (by
    match x with
    | ⟨0, _⟩ => exact (rhs_blockdot_0 _ _).trans hk
    | ⟨1, _⟩ => exact rhs_blockdot_1 _ _)
  rw [el, er]

/-! ## What the body stores, at an entry of the block -/

/-- Entry (p, q) of the stored block: w[p, q] + (1/16) * sum over r < 16 of a[p, r] * b[r, q] (the narrowing
    conversions are the identity on the extended reals, the scale stays the printed word). -/
theorem stored_apply (a : Vec Ideal S1024x16 .f32) (b : Vec Ideal S16x1024 .f32) (w : Vec Ideal S1024x1024 .f32) (p q : Fin 1024) :
    k0_pay1 (F := Ideal) a b w (ix2 p q) = w (ix2 p q) + Cert.Spec.sixteenth * ∑ r : Fin 16, a (ix2 p r) * b (ix2 r q) := by
  unfold k0_pay1
  rw [truncf_apply, addf_apply, mulf_apply, broadcast_apply, blockdot_apply]
  rfl

/-- The effective weight at an entry J, from W_q read at J, A read along J's row and B read along J's column. -/
theorem effw_of_entries (Wq : S4096x4096.Idx → EReal) (A : S4096x16.Idx → EReal) (B : S16x4096.Idx → EReal)
    (J j0 : S4096x4096.Idx) (ja : Fin 16 → S4096x16.Idx) (jb : Fin 16 → S16x4096.Idx) (h0 : j0 = J)
    (ha : ∀ r, ja r = ix2 (n0 := 4096) (n1 := 16) ⟨(J 0).val, (J 0).isLt⟩ r)
    (hb : ∀ r, jb r = ix2 (n0 := 16) (n1 := 4096) r ⟨(J 1).val, (J 1).isLt⟩) :
    Wq j0 + Cert.Spec.sixteenth * ∑ r : Fin 16, A (ja r) * B (jb r) = Cert.Spec.effw Wq A B J := by
  unfold Cert.Spec.effw
  rw [h0]
  exact congrArg _ (congrArg _ (Finset.sum_congr rfl fun r _ => by rw [ha r, hb r]))

/-! ## Where the blocks sit in their arrays -/

theorem offsets_zero : (![0, 0] : Fin 2 → Nat) = fun _ => 0 := funext fun a => by fin_cases a <;> rfl

/-- The block indices at a point, decided over the grid: W_q's block is the output's block (i, j), A's is (i, 0),
    B's is (0, j), and i, j stay below 4. -/
theorem block_indices : ∀ t : Fin cfg0.N,
    win0_0.index t (0 : Fin 2) = win0_3.index t (0 : Fin 2)
  ∧ win0_0.index t (1 : Fin 2) = win0_3.index t (1 : Fin 2)
  ∧ win0_1.index t (0 : Fin 2) = win0_3.index t (0 : Fin 2)
  ∧ win0_1.index t (1 : Fin 2) = 0
  ∧ win0_2.index t (0 : Fin 2) = 0
  ∧ win0_2.index t (1 : Fin 2) = win0_3.index t (1 : Fin 2)
  ∧ win0_3.index t (0 : Fin 2) ≤ 3 ∧ win0_3.index t (1 : Fin 2) ≤ 3 :=
  (by decide +kernel : ∀ t : Fin grid0.N, _)

/-- Every output block (i, j) with i, j < 4 is some point's. -/
theorem block_of_some_point : ∀ (q0 q1 : Fin 4), ∃ t : Fin cfg0.N, win0_3.index t = ![q0.val, q1.val] :=
  (by decide +kernel : ∀ (q0 q1 : Fin 4), ∃ t : Fin grid0.N, win0_3.index t = ![q0.val, q1.val])

/-- Entry (p, q) of W_q's block at point t sits where entry (p, q) of the output's block does. -/
theorem wq_entry_at (t : Fin cfg0.N) (p q : Fin 1024) :
    ((cfg0.win 0).blk t).view.emb (ix2 p q) = ((cfg0.win 3).blk t).view.emb (ix2 p q) := by
  obtain ⟨e0, e1, -⟩ := block_indices t
  funext a; apply Fin.ext
  match a with
  | ⟨0, _⟩ => show win0_0.index t (0 : Fin 2) * 1024 + 1 * p.val = win0_3.index t (0 : Fin 2) * 1024 + 1 * p.val; omega
  | ⟨1, _⟩ => show win0_0.index t (1 : Fin 2) * 1024 + 1 * q.val = win0_3.index t (1 : Fin 2) * 1024 + 1 * q.val; omega

/-- Entry (p, r) of A's block at point t is in the output entry's row, at column r. -/
theorem a_entry_at (t : Fin cfg0.N) (p q : Fin 1024) (r : Fin 16) :
    ((cfg0.win 1).blk t).view.emb (ix2 p r)
      = ix2 (n0 := 4096) (n1 := 16) ⟨((((cfg0.win 3).blk t).view.emb (ix2 p q)) 0).val, ((((cfg0.win 3).blk t).view.emb (ix2 p q)) 0).isLt⟩ r := by
  obtain ⟨-, -, e2, e3, -⟩ := block_indices t
  funext a; apply Fin.ext
  match a with
  | ⟨0, _⟩ => show win0_1.index t (0 : Fin 2) * 1024 + 1 * p.val = win0_3.index t (0 : Fin 2) * 1024 + 1 * p.val; omega
  | ⟨1, _⟩ => show win0_1.index t (1 : Fin 2) * 16 + 1 * r.val = r.val; omega

/-- Entry (r, q) of B's block at point t is in the output entry's column, at row r. -/
theorem b_entry_at (t : Fin cfg0.N) (p q : Fin 1024) (r : Fin 16) :
    ((cfg0.win 2).blk t).view.emb (ix2 r q)
      = ix2 (n0 := 16) (n1 := 4096) r ⟨((((cfg0.win 3).blk t).view.emb (ix2 p q)) 1).val, ((((cfg0.win 3).blk t).view.emb (ix2 p q)) 1).isLt⟩ := by
  obtain ⟨-, -, -, -, e4, e5, -⟩ := block_indices t
  funext a; apply Fin.ext
  match a with
  | ⟨0, _⟩ => show win0_2.index t (0 : Fin 2) * 16 + 1 * r.val = r.val; omega
  | ⟨1, _⟩ => show win0_2.index t (1 : Fin 2) * 1024 + 1 * q.val = win0_3.index t (1 : Fin 2) * 1024 + 1 * q.val; omega

/-! ## What each point writes back, and the array after the region -/

/-- What point t writes back is block t of the effective weight of the arrays the region found. -/
theorem written_back_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (Cert.Spec.effw (V c main_arg1) (V c main_arg2) (V c main_arg3)) := by
  show (cfg0.win 3).cut (grid0.coords t) ((dat0 (F := Ideal) V c).after 3 t) = _
  rw [after0_3]
  unfold out0_3
  rw [View.canon_unit_zero offsets_zero]
  simp only [View.ld_unit_zero (S := S1024x1024) offsets_zero, View.ld_unit_zero (S := S1024x16) offsets_zero, View.ld_unit_zero (S := S16x1024) offsets_zero]
  funext j
  obtain ⟨p, q, rfl⟩ : ∃ (p q : Fin 1024), j = ix2 p q := ⟨j 0, j 1, eq_ix2 j⟩
  refine (stored_apply (iblk0 V c 1 t) (iblk0 V c 2 t) (iblk0 V c 0 t) p q).trans ?_
  exact effw_of_entries (V c main_arg1) (V c main_arg2) (V c main_arg3) (((cfg0.win 3).blk t).view.emb (ix2 p q))
    (((cfg0.win 0).blk t).view.emb (ix2 p q)) (fun r => ((cfg0.win 1).blk t).view.emb (ix2 p r)) (fun r => ((cfg0.win 2).blk t).view.emb (ix2 r q))
    (wq_entry_at t p q) (a_entry_at t p q) (b_entry_at t p q)

/-- An entry of the array is in point t's output block iff each coordinate is in the block's range on its axis. -/
theorem mem_out_block (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The sixteen output blocks tile the array: entry (r, s) is in the block of the point whose block indices are
    (r / 1024, s / 1024), and every point writes its block back. -/
theorem out_blocks_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := block_of_some_point ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_out_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After region 0 the output array holds the effective weight W_q + (1/16) * (A B) of the arrays the region found. -/
theorem effw_final (V : (c : Dev nD) → (b : Ref sig .tc) → Buf (Elt Ideal) ((c : Thread nD τ).loc b)) (c : Dev nD) :
    (Cert.KernelIdeal.Frame.dat0 (F := Ideal) V c).arrAt 3 cfg0.N = Cert.Spec.effw (V c main_arg1) (V c main_arg2) (V c main_arg3) :=
  (dat0 (F := Ideal) V c).arrAt_eq_of_cover 3 (Cert.Spec.effw (V c main_arg1) (V c main_arg2) (V c main_arg3))
    (fun t _ => written_back_eq V c t) out_blocks_cover

end Cert.KernelIdeal.EffwValue

end
-- ==== Proof.KI.Val1.lean ====
/-
  The value of region 1 of @main, the tiled matrix product with bias, at the ideal floats (extended reals, every
  operation exact). Along a run of eight grid points the scratch holds the partial sums of the contracted axis,
  512 columns more at every point; at the run's last point the full sum over the 4096 columns plus the bias row's
  entry is stored and written back to the output block (row block, column block) of that run. The 32 output blocks
  tile the 16384 x 4096 array, so the array ends holding, at (r, o), the sum over i < 4096 of X[r, i] * W[o, i]
  plus b[0, o].
-/
import proofs.«170482_j65687229825366_1_alg».proof.Proof.KI.Region1
import proofs.«170482_j65687229825366_1_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.MmValue

open Cert.KernelIdeal Cert.KernelIdeal.Gen Cert.KernelIdeal.Frame
open Idealize.ShloMosaic Idealize.ShloMosaic.TcCoe Idealize.SL.Sem
open Idealize.ShloMosaic.ValueIdx
open Idealize.ShloMosaic.Pipeline (Dat)

/-! ## The three payloads at an index -/

/-- The zero block is zero everywhere. -/
theorem zero_block_apply (p : Fin 1024) (q : Fin 2048) :
    (k1_pay1 (F := Ideal)) (ix2 p q) = 0 := by
  unfold k1_pay1
  rw [shapeCast_self]
  show Ideal.ofBits .f32 0x00000000#32 = 0
  exact Ideal.ofBits_zero_f32

theorem lhs_mm_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_mm_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_mm_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_mm_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The block product into the zero accumulator, at (p, q): the sum over the 512 shared columns. -/
theorem block_product_apply (x : FVec Ideal S1024x512 .bf16) (w : FVec Ideal S2048x512 .bf16) (p : Fin 1024) (q : Fin 2048) :
    matmul (F := Ideal) dot_S1024x512_S2048x512_S1024x2048_1_1_0_0_n_n none x w (constant (F := Ideal) S1024x2048 .f32 0x00000000#32) (ix2 p q)
      = ∑ k : Fin 512, x (ix2 p k) * w (ix2 q k) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 p q) ((ValueIdx.contrEquiv1 dot_S1024x512_S2048x512_S1024x2048_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S1024x512_S2048x512_S1024x2048_1_1_0_0_n_n.rhsIdx (ix2 p q) ((ValueIdx.contrEquiv1 dot_S1024x512_S2048x512_S1024x2048_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- The accumulation step at (p, q): what the scratch held there plus the block product. -/
theorem acc_step_apply (x : Vec Ideal S1024x512 .f32) (w : Vec Ideal S2048x512 .bf16) (s : Vec Ideal S1024x2048 .f32)
    (p : Fin 1024) (q : Fin 2048) :
    k1_pay2 (F := Ideal) x w s (ix2 p q) = s (ix2 p q) + ∑ k : Fin 512, x (ix2 p k) * w (ix2 q k) := by
  unfold k1_pay2
  simp only [shapeCast_self]
  rw [ValueIdx.addf_apply, block_product_apply]
  rfl

/-- The store of the result at (p, q): the scratch there plus the bias row's entry of column q. -/
theorem bias_add_apply (s : Vec Ideal S1024x2048 .f32) (b : Vec Ideal S1x2048 .f32) (p : Fin 1024) (q : Fin 2048) :
    k1_pay3 (F := Ideal) s b (ix2 p q) = s (ix2 p q) + b (ix2 (n0 := 1) (n1 := 2048) ⟨0, Nat.one_pos⟩ q) := by
  unfold k1_pay3
  simp only [shapeCast_self]
  rw [ValueIdx.addf_apply]
  refine congrArg (s (ix2 p q) + ·) ?_
  refine broadcastTo_apply b broadcasts_S1x2048_S1024x2048 (ix2 p q) _ (fun a => ?_)
  match a with
  | ⟨0, _⟩ => show 0 = if (1 : Nat) = 1 then 0 else _; rw [if_pos rfl]
  | ⟨1, _⟩ => show q.val = if (2048 : Nat) = 1 then 0 else q.val; rw [if_neg (by decide)]

/-! ## The arrays by natural coordinates -/

/-- Entry (r, i) of a 16384 x 4096 array by natural coordinates, zero outside the array. -/
def rowsAt (X : (⟨2, ![16384, 4096]⟩ : Shape).Idx → EReal) (r i : ℕ) : EReal :=
  if h : r < 16384 ∧ i < 4096 then X (ix2 ⟨r, h.1⟩ ⟨i, h.2⟩) else 0

/-- Entry (o, i) of a 4096 x 4096 array by natural coordinates, zero outside the array. -/
def weightAt (W : (⟨2, ![4096, 4096]⟩ : Shape).Idx → EReal) (o i : ℕ) : EReal :=
  if h : o < 4096 ∧ i < 4096 then W (ix2 ⟨o, h.1⟩ ⟨i, h.2⟩) else 0

/-- The product with bias at an index whose coordinates are r and o: the sum over the 4096 shared columns, as a
    sum over naturals, plus the bias row's entry o. -/
theorem mm_at (X : (⟨2, ![16384, 4096]⟩ : Shape).Idx → EReal) (W : (⟨2, ![4096, 4096]⟩ : Shape).Idx → EReal)
    (B : (⟨2, ![1, 4096]⟩ : Shape).Idx → EReal) (e : (⟨2, ![16384, 4096]⟩ : Shape).Idx) (r o : ℕ)
    (hr : (e 0).val = r) (ho : (e 1).val = o) (hlt : o < 4096) :
    Cert.Spec.mm X W B e
      = (∑ i ∈ Finset.range 4096, rowsAt X r i * weightAt W o i) + B (ix2 (n0 := 1) (n1 := 4096) ⟨0, Nat.one_pos⟩ ⟨o, hlt⟩) := by
  subst hr; subst ho
  unfold Cert.Spec.mm
  rw [Finset.sum_range]
  refine congrArg₂ (· + ·) (Finset.sum_congr rfl fun i _ => ?_) rfl
  unfold rowsAt weightAt
  rw [dif_pos ⟨idx2_lt0 e, i.isLt⟩, dif_pos ⟨idx2_lt1 e, i.isLt⟩]

/-- A sum over 512 k naturals and the next 512 terms make the sum over 512 (k + 1). -/
theorem sum_next_block (f : ℕ → EReal) (k : ℕ) :
    ∑ i ∈ Finset.range (512 * k), f i + ∑ i ∈ Finset.range 512, f (512 * k + i) = ∑ i ∈ Finset.range (512 * (k + 1)), f i := by
  rw [Nat.mul_succ, Finset.sum_range_add]

/-! ## Where each block sits in its array -/

variable (V : (c : Dev nD) → (b : Ref sig .tc) → Buf (Elt Ideal) ((c : Thread nD τ).loc b))

theorem pt_lt (t : Fin cfg1.N) : t.val < 256 := Nat.lt_of_lt_of_eq t.isLt N_1

/-- The printed index maps at point t = (i * 2 + j) * 8 + k: (i, k) for x, (j, k) for the weight, (0, j) for the
    bias row, (i, j) for the output; decided over the grid. -/
theorem idx_facts : ∀ t : Fin cfg1.N, win1_0.index t (0 : Fin 2) = t.val / 16
    ∧ win1_0.index t (1 : Fin 2) = t.val % 8
    ∧ win1_1.index t (0 : Fin 2) = t.val / 8 % 2
    ∧ win1_1.index t (1 : Fin 2) = t.val % 8
    ∧ win1_2.index t (0 : Fin 2) = 0
    ∧ win1_2.index t (1 : Fin 2) = t.val / 8 % 2
    ∧ win1_3.index t (0 : Fin 2) = t.val / 16
    ∧ win1_3.index t (1 : Fin 2) = t.val / 8 % 2 :=
  (by decide +kernel : ∀ t : Fin grid1.N, _)

/-- The block of x at point t, entry (p, k): row (t / 16) * 1024 + p, column 512 * (t % 8) + k of x. -/
theorem xblk_apply (c : Dev nD) (t : Fin cfg1.N) (p : Fin 1024) (k : Fin 512) :
    xblk1 V c t (ix2 p k) = rowsAt (V c main_v1) (t.val / 16 * 1024 + p.val) (512 * (t.val % 8) + k.val) := by
  obtain ⟨e0, e1, -⟩ := idx_facts t
  have hlt := pt_lt t
  unfold rowsAt
  rw [dif_pos ⟨by omega, by omega⟩]
  show V c main_v1 (((cfg1.win 0).blk t).view.emb (ix2 p k)) = V c main_v1 _
  refine congrArg (V c main_v1) (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 512 + 1 * k.val = 512 * (t.val % 8) + k.val; rw [e1]; omega

/-- The block of the weight at point t, entry (q, k): row (t / 8 % 2) * 2048 + q, column 512 * (t % 8) + k. -/
theorem wblk_apply (c : Dev nD) (t : Fin cfg1.N) (q : Fin 2048) (k : Fin 512) :
    wblk1 V c t (ix2 q k) = weightAt (V c main_v0) (t.val / 8 % 2 * 2048 + q.val) (512 * (t.val % 8) + k.val) := by
  obtain ⟨-, -, e0, e1, -⟩ := idx_facts t
  have hlt := pt_lt t
  unfold weightAt
  rw [dif_pos ⟨by omega, by omega⟩]
  show V c main_v0 (((cfg1.win 1).blk t).view.emb (ix2 q k)) = V c main_v0 _
  refine congrArg (V c main_v0) (funext fun a => Fin.ext ?_)
  match a with
  | ⟨0, _⟩ => show win1_1.index t (0 : Fin 2) * 2048 + 1 * q.val = t.val / 8 % 2 * 2048 + q.val; rw [e0]; omega
  | ⟨1, _⟩ => show win1_1.index t (1 : Fin 2) * 512 + 1 * k.val = 512 * (t.val % 8) + k.val; rw [e1]; omega

/-- The block of the bias row at point t, entry (0, q): entry (0, (t / 8 % 2) * 2048 + q) of the row. -/
theorem bblk_apply (c : Dev nD) (t : Fin cfg1.N) (z : Fin 1) (q : Fin 2048) (hlt : t.val / 8 % 2 * 2048 + q.val < 4096) :
    bblk1 V c t (ix2 z q) = V c main_v2 (ix2 (n0 := 1) (n1 := 4096) ⟨0, Nat.one_pos⟩ ⟨t.val / 8 % 2 * 2048 + q.val, hlt⟩) := by
  obtain ⟨-, -, -, -, e0, e1, -⟩ := idx_facts t
  show V c main_v2 (((cfg1.win 2).blk t).view.emb (ix2 z q)) = V c main_v2 _
  refine congrArg (V c main_v2) (funext fun a => Fin.ext ?_)
  match a with
  | ⟨0, _⟩ => show win1_2.index t (0 : Fin 2) * 1 + 1 * z.val = 0; rw [e0]; omega
  | ⟨1, _⟩ => show win1_2.index t (1 : Fin 2) * 2048 + 1 * q.val = t.val / 8 % 2 * 2048 + q.val; rw [e1]; omega

/-! ## The scratch along a run of eight points: partial sums of the contracted axis -/

/-- The block product at point t, entry (p, q): the 512 terms of the full sum that start at column 512 * (t % 8). -/
theorem block_sum (c : Dev nD) (t : Fin cfg1.N) (p : Fin 1024) (q : Fin 2048) :
    ∑ k : Fin 512, xblk1 V c t (ix2 p k) * wblk1 V c t (ix2 q k)
      = ∑ i ∈ Finset.range 512, rowsAt (V c main_v1) (t.val / 16 * 1024 + p.val) (512 * (t.val % 8) + i)
          * weightAt (V c main_v0) (t.val / 8 % 2 * 2048 + q.val) (512 * (t.val % 8) + i) := by
  rw [Finset.sum_range]
  exact Finset.sum_congr rfl fun k _ => by rw [xblk_apply, wblk_apply]

/-- After point n the scratch holds, at (p, q), the first 512 * (n % 8 + 1) terms of the sum for row
    (n / 16) * 1024 + p of x and row (n / 8 % 2) * 2048 + q of the weight. -/
theorem acc_partial (c : Dev nD) : ∀ (n : ℕ) (hn : n < cfg1.N) (p : Fin 1024) (q : Fin 2048),
    accAt1 V c n hn (ix2 p q)
      = ∑ i ∈ Finset.range (512 * (n % 8 + 1)), rowsAt (V c main_v1) (n / 16 * 1024 + p.val) i * weightAt (V c main_v0) (n / 8 % 2 * 2048 + q.val) i := by
  intro n
  induction n with
  | zero =>
    intro hn p q
    refine (congrFun (accAt1_reset V c ⟨0, hn⟩ rfl) (ix2 p q)).trans ?_
    rw [acc_step_apply, zero_block_apply, zero_add, block_sum]
    rfl
  | succ m ih =>
    intro hn p q
    by_cases h : (m + 1) % 8 = 0
    · refine (congrFun (accAt1_reset V c ⟨m + 1, hn⟩ h) (ix2 p q)).trans ?_
      rw [acc_step_apply, zero_block_apply, zero_add, block_sum]
      show ∑ i ∈ Finset.range 512, rowsAt (V c main_v1) ((m + 1) / 16 * 1024 + p.val) (512 * ((m + 1) % 8) + i)
          * weightAt (V c main_v0) ((m + 1) / 8 % 2 * 2048 + q.val) (512 * ((m + 1) % 8) + i) = _
      rw [h]
      rfl
    · refine (congrFun (accAt1_step V c ⟨m + 1, hn⟩ h) (ix2 p q)).trans ?_
      rw [acc_step_apply, block_sum]
      show accAt1 V c m _ (ix2 p q) + ∑ i ∈ Finset.range 512, rowsAt (V c main_v1) ((m + 1) / 16 * 1024 + p.val) (512 * ((m + 1) % 8) + i)
          * weightAt (V c main_v0) ((m + 1) / 8 % 2 * 2048 + q.val) (512 * ((m + 1) % 8) + i) = _
      rw [ih (Nat.lt_of_succ_lt hn) p q]
      have e1 : m / 16 = (m + 1) / 16 := by omega
      have e2 : m / 8 % 2 = (m + 1) / 8 % 2 := by omega
      have e3 : m % 8 + 1 = (m + 1) % 8 := by omega
      rw [e1, e2, e3]
      exact sum_next_block (fun i => rowsAt (V c main_v1) ((m + 1) / 16 * 1024 + p.val) i * weightAt (V c main_v0) ((m + 1) / 8 % 2 * 2048 + q.val) i) ((m + 1) % 8)

/-- At the last point of a run the scratch holds the full sums over the 4096 columns. -/
theorem acc_full (c : Dev nD) (t : Fin cfg1.N) (h7 : t.val % 8 = 7) (p : Fin 1024) (q : Fin 2048) :
    accAt1 V c t.val t.isLt (ix2 p q)
      = ∑ i ∈ Finset.range 4096, rowsAt (V c main_v1) (t.val / 16 * 1024 + p.val) i * weightAt (V c main_v0) (t.val / 8 % 2 * 2048 + q.val) i := by
  rw [acc_partial V c t.val t.isLt p q, h7]

/-! ## What is written back, and the whole array -/

/-- What the last point of a run writes back is its block of the product with bias. -/
theorem flushed_eq (c : Dev nD) (t : Fin cfg1.N) (hf : (cfg1.win 3).flush t = true) :
    (dat1 V c).flushed 3 t
      = ((cfg1.win 3).blk t).view.read (Elt Ideal) (Cert.Spec.mm (V c main_v1) (V c main_v0) (V c main_v2)) := by
  have h7 : t.val % 8 = 7 := (flush1_3 t).mp hf
  obtain ⟨-, -, -, -, -, -, o0, o1⟩ := idx_facts t
  have hlt := pt_lt t
  show (cfg1.win 3).cut (grid1.coords t) ((dat1 V c).after 3 t) = _
  rw [after1_3]
  refine funext fun (j : S1024x2048.Idx) => ?_
  obtain ⟨p, q, rfl⟩ : ∃ (p : Fin 1024) (q : Fin 2048), j = ix2 p q := ⟨j 0, j 1, eq_ix2 j⟩
  show k1_pay3 (accAt1 V c t.val t.isLt) (bblk1 V c t) (ix2 p q)
    = Cert.Spec.mm (V c main_v1) (V c main_v0) (V c main_v2) (((cfg1.win 3).blk t).view.emb (ix2 p q))
  refine Eq.trans ?_ (mm_at _ _ _ _ (t.val / 16 * 1024 + p.val) (t.val / 8 % 2 * 2048 + q.val) ?_ ?_ (by omega)).symm
  · rw [bias_add_apply, acc_full V c t h7 p q, bblk_apply V c t ⟨0, Nat.one_pos⟩ q (by omega)]
  · show win1_3.index t (0 : Fin 2) * 1024 + 1 * p.val = t.val / 16 * 1024 + p.val
    rw [o0]; omega
  · show win1_3.index t (1 : Fin 2) * 2048 + 1 * q.val = t.val / 8 % 2 * 2048 + q.val
    rw [o1]; omega

/-- An index of the output array is in point t's block iff each coordinate is in the block's range on its axis. -/
theorem mem_out_blk (t : Fin cfg1.N) (i : S16384x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v3).slice (win1_3.rect t)).set ↔ _
  rw [View.set_slice_whole, Rect.mem_set_unit]
  exact Iff.rfl

/-- Every index (r, o) of the output array is in the block written back at the last point of the run of row block
    r / 1024 and column block o / 2048. -/
theorem covered (i : S16384x4096.Idx) :
    ∃ t : Fin cfg1.N, (cfg1.win 3).flush t = true ∧ i ∈ ((cfg1.win 3).blk t).view.set := by
  have h0 : (i 0).val < 16384 := idx2_lt0 i
  have h1 : (i 1).val < 4096 := idx2_lt1 i
  obtain ⟨n, hn⟩ : ∃ n, n = ((i 0).val / 1024 * 2 + (i 1).val / 2048) * 8 + 7 := ⟨_, rfl⟩
  have hlt : n < cfg1.N := Nat.lt_of_lt_of_eq (show n < 256 by omega) N_1.symm
  obtain ⟨-, -, -, -, -, -, o0, o1⟩ := idx_facts ⟨n, hlt⟩
  refine ⟨⟨n, hlt⟩, (flush1_3 _).mpr (show n % 8 = 7 by omega), ?_⟩
  rw [mem_out_blk]
  intro a
  match a with
  | ⟨0, _⟩ =>
    show win1_3.index ⟨n, hlt⟩ (0 : Fin 2) * 1024 ≤ (i 0).val ∧ (i 0).val < win1_3.index ⟨n, hlt⟩ (0 : Fin 2) * 1024 + 1024
    rw [o0]; show n / 16 * 1024 ≤ (i 0).val ∧ (i 0).val < n / 16 * 1024 + 1024; omega
  | ⟨1, _⟩ =>
    show win1_3.index ⟨n, hlt⟩ (1 : Fin 2) * 2048 ≤ (i 1).val ∧ (i 1).val < win1_3.index ⟨n, hlt⟩ (1 : Fin 2) * 2048 + 2048
    rw [o1]; show n / 8 % 2 * 2048 ≤ (i 1).val ∧ (i 1).val < n / 8 % 2 * 2048 + 2048; omega

/-- After the region the output array holds the product with bias of the three arrays as the region found them. -/
theorem mm_final (V : (c : Dev nD) → (b : Ref sig .tc) → Buf (Elt Ideal) ((c : Thread nD τ).loc b)) (c : Dev nD) :
    (Cert.KernelIdeal.Frame.dat1 (F := Ideal) V c).arrAt 3 cfg1.N = Cert.Spec.mm (V c main_v1) (V c main_v0) (V c main_v2) :=
  (dat1 (F := Ideal) V c).arrAt_eq_of_cover 3 _ (fun t hf => flushed_eq V c t hf) covered

end Cert.KernelIdeal.MmValue

end
-- ==== Proof.RefValue.lean ====
import proofs.«170482_j65687229825366_1_alg».proof.Proof.Gen.ReferenceIdeal.Run
import proofs.«170482_j65687229825366_1_alg».proof.Proof.Gen.ReferenceIdeal.Read
import proofs.«170482_j65687229825366_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! The reference, read at one index (b, s, o), is the specification's entry there:
    the sum over i of x[b, s, i] * (W_q[o, i] + (1/16) * sum over r of A[o, r] * B[r, i]), plus bias[o].
    First the five index functions of the reference's stages, written by coordinates. -/

/-- The outer contraction reads its left operand at (b, s, k). -/
theorem outer_left (i : S4x4096x4096.Idx) (k : Fin 4096) :
    lidx_main_v4 i k
      = ix3 (n0 := 4) (n1 := 4096) (n2 := 4096) ⟨(i 0).val, (i 0).isLt⟩ ⟨(i 1).val, (i 1).isLt⟩ k :=
  funext fun a => Fin.ext (by match a with | ⟨0, _⟩ => rfl | ⟨1, _⟩ => rfl | ⟨2, _⟩ => rfl)

/-- The outer contraction reads the effective weight at (o, k). -/
theorem outer_right (i : S4x4096x4096.Idx) (k : Fin 4096) :
    ridx_main_v4 i k = ix2 (n0 := 4096) (n1 := 4096) ⟨(i 2).val, (i 2).isLt⟩ k :=
  funext fun a => Fin.ext (by match a with | ⟨0, _⟩ => rfl | ⟨1, _⟩ => rfl)

/-- The inner contraction reads A at (o, r). -/
theorem inner_left (j : S4096x4096.Idx) (r : Fin 16) :
    lidx_main_v0 j r = ix2 (n0 := 4096) (n1 := 16) ⟨(j 0).val, (j 0).isLt⟩ r :=
  funext fun a => Fin.ext (by match a with | ⟨0, _⟩ => rfl | ⟨1, _⟩ => rfl)

/-- The inner contraction reads B at (r, i). -/
theorem inner_right (j : S4096x4096.Idx) (r : Fin 16) :
    ridx_main_v0 j r = ix2 (n0 := 16) (n1 := 4096) r ⟨(j 1).val, (j 1).isLt⟩ :=
  funext fun a => Fin.ext (by match a with | ⟨0, _⟩ => rfl | ⟨1, _⟩ => rfl)

/-- The two broadcasts of the bias read it at o. -/
theorem bias_at (i : S4x4096x4096.Idx) :
    idx_main_v5 (idx_main_v6 i) = ix1 (n := 4096) ⟨(i 2).val, (i 2).isLt⟩ :=
  funext fun a => Fin.ext (by match a with | ⟨0, _⟩ => rfl)

/-- The scale the reference prints is the specification's 1/16. -/
theorem scale_eq : FloatOps.ofBits (F := Ideal) .f32 0x3D800000#32 = Cert.Spec.sixteenth := rfl

/-- One entry of the effective weight, as the reference computes it. -/
theorem weight_at (Wq : (⟨S4096x4096, .f32⟩ : BufTy).Contents (Elt Ideal))
    (A : (⟨S4096x16, .f32⟩ : BufTy).Contents (Elt Ideal)) (B : (⟨S16x4096, .f32⟩ : BufTy).Contents (Elt Ideal))
    (j : S4096x4096.Idx) :
    val_main_v3 (F := Ideal) Wq A B j = Cert.Spec.effw Wq A B j := by
  rw [val_main_v3_apply, val_main_v2_apply, val_main_v1_apply, val_main_cst_apply, val_main_v0_apply]
  unfold Cert.Spec.effw
  simp only [Ideal.addf_def, Ideal.mulf_def, scale_eq, inner_left, inner_right]

theorem ref_eq (x : (⟨S4x4096x4096, .f32⟩ : BufTy).Contents (Elt Ideal))
    (Wq : (⟨S4096x4096, .f32⟩ : BufTy).Contents (Elt Ideal))
    (A : (⟨S4096x16, .f32⟩ : BufTy).Contents (Elt Ideal)) (B : (⟨S16x4096, .f32⟩ : BufTy).Contents (Elt Ideal))
    (bias : (⟨S4096, .f32⟩ : BufTy).Contents (Elt Ideal)) :
    Cert.ReferenceIdeal.Read.val_main_v7 (F := Ideal) x Wq A B bias = Cert.Spec.out x Wq A B bias := by
  funext i
  rw [val_main_v7_apply, val_main_v4_apply, val_main_v6_apply, val_main_v5_apply, bias_at, Ideal.addf_def]
  unfold Cert.Spec.out
  congr 1
  refine Finset.sum_congr rfl fun k _ => ?_
  rw [outer_left, outer_right, weight_at]

end Cert.ReferenceIdeal.RefValue

end
-- ==== Proof.Bridge.lean ====
/-
  The kernel's layout is the specification's. The kernel flattens x to 16384 rows (row 4096 * b + s), views the bias
  as one row of 4096, forms the flattened product with the effective weight, and reshapes the 16384 x 4096 result
  back to 4 x 4096 x 4096. Read at an index (b, s, o), that is the specification's entry: each reshape keeps the
  row-major position, and the position of (b, s, i) in 4 x 4096 x 4096 is that of (4096 * b + s, i) in 16384 x 4096.
-/
import proofs.«170482_j65687229825366_1_alg».proof.Proof.Spec
import Idealize.ShloMosaic.Lib.Pipeline.Value
import Idealize.ShloMosaic.Lib.ValueIdx

noncomputable section

namespace Cert.Bridge

open Idealize.ShloMosaic Idealize.ShloMosaic.ValueIdx

/-- The flattened product, reshaped to three axes, is the specification's result. -/
theorem out_of_mm (x : (⟨3, ![4, 4096, 4096]⟩ : Shape).Idx → EReal) (Wq : (⟨2, ![4096, 4096]⟩ : Shape).Idx → EReal)
    (A : (⟨2, ![4096, 16]⟩ : Shape).Idx → EReal) (B : (⟨2, ![16, 4096]⟩ : Shape).Idx → EReal)
    (bias : (⟨1, ![4096]⟩ : Shape).Idx → EReal)
    (h1 : (⟨3, ![4, 4096, 4096]⟩ : Shape).ShapeCasts ⟨2, ![16384, 4096]⟩)
    (h2 : (⟨1, ![4096]⟩ : Shape).ShapeCasts ⟨2, ![1, 4096]⟩)
    (h3 : (⟨2, ![16384, 4096]⟩ : Shape).ShapeCasts ⟨3, ![4, 4096, 4096]⟩) :
    shapeCast ⟨3, ![4, 4096, 4096]⟩
        (Cert.Spec.mm (shapeCast ⟨2, ![16384, 4096]⟩ x h1) (Cert.Spec.effw Wq A B) (shapeCast ⟨2, ![1, 4096]⟩ bias h2)) h3
      = Cert.Spec.out x Wq A B bias := by
  funext j
  have hb : (j 0).val < 4 := (j 0).isLt
  have hs : (j 1).val < 4096 := (j 1).isLt
  have ho : (j 2).val < 4096 := (j 2).isLt
  -- the outer reshape: (b, s, o) of 4 x 4096 x 4096 sits where (4096 * b + s, o) of 16384 x 4096 does
  refine (shapeCast_apply _ h3 j
    (ix2 (n0 := 16384) (n1 := 4096) ⟨4096 * (j 0).val + (j 1).val, by omega⟩ ⟨(j 2).val, ho⟩)
    (by rw [Shape.rowMajor_val_two, Shape.rowMajor_val_three]
        show (4096 * (j 0).val + (j 1).val) * 4096 + (j 2).val = ((j 0).val * 4096 + (j 1).val) * 4096 + (j 2).val
        omega)).trans ?_
  unfold Cert.Spec.mm Cert.Spec.out
  refine congrArg₂ (· + ·) (Finset.sum_congr rfl fun i _ => congrArg₂ (· * ·) ?_ rfl) ?_
  · -- the flattened x at (4096 * b + s, i) is x at (b, s, i)
    exact shapeCast_apply x h1 _
      (ix3 (n0 := 4) (n1 := 4096) (n2 := 4096) ⟨(j 0).val, (j 0).isLt⟩ ⟨(j 1).val, (j 1).isLt⟩ i)
      (by rw [Shape.rowMajor_val_three, Shape.rowMajor_val_two]
          show ((j 0).val * 4096 + (j 1).val) * 4096 + i.val = (4096 * (j 0).val + (j 1).val) * 4096 + i.val
          omega)
  · -- the one-row bias at (0, o) is the bias at o
    exact shapeCast_apply bias h2 _ (ix1 (n := 4096) ⟨(j 2).val, (j 2).isLt⟩)
      (by rw [Shape.rowMajor_val_one, Shape.rowMajor_val_two]
          show (j 2).val = 0 * 4096 + (j 2).val
          omega)

end Cert.Bridge

end
-- ==== Proof.lean ====
/-
  The certificate's claims. The kernel program is two kernel regions among reshapes: the first forms the effective
  weight W_q + (1/16) * (A B); the second multiplies the flattened x by its transpose block by block, summing the
  eight 512-wide blocks of the contracted axis in a scratch accumulator, and adds the bias row. The reference forms
  the same weight and contracts the whole axis at once. Over the extended reals both results are, at (b, s, o), the
  sum over i < 4096 of x[b, s, i] * (W_q[o, i] + (1/16) * sum over r < 16 of A[o, r] * B[r, i]) plus bias[o]: a sum
  regrouped into eight blocks on top of a zero is the same sum (commutativity and associativity of addition, which
  hold on all of the extended reals), so the inputs' finiteness is never used.
  Each program's frame comes from its run to a post that names every buffer after the run; the reference's from its
  run read back.
-/
import proofs.«170482_j65687229825366_1_alg».proof.Defs
import proofs.«170482_j65687229825366_1_alg».proof.Proof.Gen.Kernel
import proofs.«170482_j65687229825366_1_alg».proof.Proof.Gen.KernelIdeal
import proofs.«170482_j65687229825366_1_alg».proof.Proof.Gen.ReferenceIdeal
import proofs.«170482_j65687229825366_1_alg».proof.Proof.Gen.Pre_finite_inputs
import proofs.«170482_j65687229825366_1_alg».proof.Proof.Gen.ReferenceIdeal.Run
import proofs.«170482_j65687229825366_1_alg».proof.Proof.Gen.ReferenceIdeal.Read
import proofs.«170482_j65687229825366_1_alg».proof.Proof.K.Launch
import proofs.«170482_j65687229825366_1_alg».proof.Proof.KI.Launch
import proofs.«170482_j65687229825366_1_alg».proof.Proof.KI.Val0
import proofs.«170482_j65687229825366_1_alg».proof.Proof.KI.Val1
import proofs.«170482_j65687229825366_1_alg».proof.Proof.RefValue
import proofs.«170482_j65687229825366_1_alg».proof.Proof.Bridge
import Idealize.ShloMosaic.Adequacy
import Idealize.ShloMosaic.Init

noncomputable section

namespace Cert.Proof

open Idealize.ShloMosaic Idealize.ShloMosaic.TcCoe Idealize.SL.Sem

/-- The idealized kernel's result array after the run is the specification's function of the argument arrays: the
    last reshape of region 1's array, which is the flattened product over region 0's array, the effective weight. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Frame.W4 (F := Ideal) m ρ c (Proc.devRef .tc Cert.KernelIdeal.main_v4)
      = Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  rw [Cert.KernelIdeal.Frame.W4_main_v4, Cert.KernelIdeal.MmValue.mm_final, Cert.KernelIdeal.Frame.V2_main_v1,
    Cert.KernelIdeal.Frame.V2_main_v0, Cert.KernelIdeal.Frame.V2_main_v2, Cert.KernelIdeal.EffwValue.effw_final]
  exact Cert.Bridge.out_of_mm _ _ _ _ _ _ _ _

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both runs end with the result array at the specification's function of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_value m ρ c), (h c).2⟩)
      (Cert.KernelIdeal.Frame.result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
